-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S2x400000 : S_.BroadcastsInDim S2x400000 (![] : Fin 0 → Fin S2x400000.rank)
  reducesTo_S2x400000_S_d0_1 : S2x400000.ReducesTo [0, 1] S_

variable [Facts]

def fn_part1 {F : FTy → Type} [FloatOps F] (main_arg1 : IVec S2x400000 32) (main_arg5 : FVec F S512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S2x400000 32 := broadcastInDim S2x400000 ![] bcast_S_S2x400000 main_c_8
  let main_v25 : IVec S2x400000 1 := cmpi .sge main_arg1 main_v24
  let main_c_9 : IVec S_ 32 := constantI S_ 32 50000#32
  let main_v26 : IVec S2x400000 32 := broadcastInDim S2x400000 ![] bcast_S_S2x400000 main_c_9
  let main_v27 : IVec S2x400000 1 := cmpi .slt main_arg1 main_v26
  let main_v28 : IVec S2x400000 1 := andi main_v25 main_v27
  let main_c_10 : IVec S_ 1 := constantI S_ 1 1#1
  let main_v29 : IVec S_ 1 := (fun x v => Host.reduce IntOp.andi x v reducesTo_S2x400000_S_d0_1 h_S_) main_v28 main_c_10
  let main_v30 : IVec S_ 1 := andi main_v23 main_v29
  main_v30

def fn {F : FTy → Type} [FloatOps F] (main_arg0 : FVec F S50000x512 .f32) (main_arg1 : IVec S2x400000 32) (main_arg2 : FVec F S512x2048 .f32) (main_arg3 : FVec F S2048 .f32) (main_arg4 : FVec F S2048x512 .f32) (main_arg5 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg1 main_arg5 main_v13 main_v16
-- ==== Kernel.lean ====
abbrev S50000x512 : Shape := ⟨2, ![50000, 512]⟩
abbrev S2x400000 : Shape := ⟨2, ![2, 400000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S1x2048 : Shape := ⟨2, ![1, 2048]⟩
abbrev S1x512 : Shape := ⟨2, ![1, 512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x512 : Shape := ⟨2, ![400000, 512]⟩
abbrev S2000x512 : Shape := ⟨2, ![2000, 512]⟩
abbrev S2000x2048 : Shape := ⟨2, ![2000, 2048]⟩

abbrev nBuf : Space → Nat
  | .hbm => 47
  | .vmem => 8
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S512x2048, .bf16⟩
  | .hbm, ⟨7, _⟩ => ⟨S2048x512, .bf16⟩
  | .hbm, ⟨8, _⟩ => ⟨S1x2048, .f32⟩
  | .hbm, ⟨9, _⟩ => ⟨S1x512, .f32⟩
  | .hbm, ⟨10, _⟩ => ⟨S50000x512, .f32⟩
  | .hbm, ⟨11, _⟩ => ⟨S1x400000, .i32⟩
  | .hbm, ⟨12, _⟩ => ⟨S400000, .i32⟩
  | .hbm, ⟨13, _⟩ => ⟨S1x400000, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S1, .i32⟩
  | .hbm, ⟨24, _⟩ => ⟨S_, .i32⟩
  | .hbm, ⟨25, _⟩ => ⟨S400000x1, .i32⟩
  | .hbm, ⟨26, _⟩ => ⟨S400000x1, .i1⟩
  | .hbm, ⟨27, _⟩ => ⟨S1x1, .i32⟩
  | .hbm, ⟨28, _⟩ => ⟨S400000x1, .i32⟩
  | .hbm, ⟨29, _⟩ => ⟨S400000x1, .i1⟩
  | .hbm, ⟨30, _⟩ => ⟨S400000x1, .i1⟩
  | .hbm, ⟨31, _⟩ => ⟨S_, .i1⟩
  | .hbm, ⟨32, _⟩ => ⟨S400000, .i1⟩
  | .hbm, ⟨33, _⟩ => ⟨S400000x512, .f32⟩
  | .hbm, ⟨34, _⟩ => ⟨S400000x512, .i1⟩
  | .hbm, ⟨35, _⟩ => ⟨S_, .f32⟩
  | .hbm, ⟨36, _⟩ => ⟨S400000x512, .f32⟩
  | .hbm, ⟨37, _⟩ => ⟨S400000x512, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x2048, .bf16⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_call0_c : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_c_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_c_1 : Ref sig .tc := ⟨.hbm, 23, rfl⟩
abbrev main_call0_call0_c_2 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_c_3 : Ref sig .tc := ⟨.hbm, 31, rfl⟩
abbrev main_call0_call0_v12 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst : Ref sig .tc := ⟨.hbm, 35, rfl⟩
abbrev main_call0_call0_v15 : Ref sig .tc := ⟨.hbm, 36, rfl⟩
abbrev main_call0_v9 : Ref sig .tc := ⟨.hbm, 37, rfl⟩
abbrev main_call0_c : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S2048_S1x2048 : S2048.ShapeCasts S1x2048
  shapeCasts_S512_S1x512 : S512.ShapeCasts S1x512
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x512_0 : S400000.BroadcastsInDim S400000x512 (![0] : Fin 1 → Fin S400000x512.rank)
  bcast_S_S400000x512 : S_.BroadcastsInDim S400000x512 (![] : Fin 0 → Fin S400000x512.rank)
  inb_S2000x512_S2000x512_0_0 : ∀ a, (![0, 0] : Fin 2 → Nat) a + S2000x512.size a ≤ S2000x512.size a
  h_S2000x512 : 0 < S2000x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2000x2048 : S1x2048.Broadcasts S2000x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x2048_S2000x2048_1_0_0_1_n_n_wf : DotDims.WF S2000x512 S512x2048 S2000x2048 [1] [0] [0] [1] [] []
  dot_S2000x2048_S2048x512_S2000x512_1_0_0_1_n_n_wf : DotDims.WF S2000x2048 S2048x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x2048_S2000x2048_1_0_0_1_n_n : DotDims S2000x512 S512x2048 S2000x2048 where
  lhsContracting := [1]
  rhsContracting := [0]
  lhsNonContracting := [0]
  rhsNonContracting := [1]
  lhsBatch := []
  rhsBatch := []
  wf := dot_S2000x512_S512x2048_S2000x2048_1_0_0_1_n_n_wf
def dot_S2000x2048_S2048x512_S2000x512_1_0_0_1_n_n : DotDims S2000x2048 S2048x512 S2000x512 where
  lhsContracting := [1]
  rhsContracting := [0]
  lhsNonContracting := [0]
  rhsNonContracting := [1]
  lhsBatch := []
  rhsBatch := []
  wf := dot_S2000x2048_S2048x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S50000x2048 : Shape := ⟨2, ![50000, 2048]⟩
abbrev S1x2048 : Shape := ⟨2, ![1, 2048]⟩
abbrev S_ : Shape := ⟨0, ![]⟩
abbrev S1x512 : Shape := ⟨2, ![1, 512]⟩
abbrev S1x400000 : Shape := ⟨2, ![1, 400000]⟩
abbrev S400000 : Shape := ⟨1, ![400000]⟩
abbrev S400000x1 : Shape := ⟨2, ![400000, 1]⟩
abbrev S400000x512 : Shape := ⟨2, ![400000, 512]⟩

abbrev nBuf : Space → Nat
  | .hbm => 35
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S50000x2048, .f32⟩
  | .hbm, ⟨7, _⟩ => ⟨S1x2048, .f32⟩
  | .hbm, ⟨8, _⟩ => ⟨S50000x2048, .f32⟩
  | .hbm, ⟨9, _⟩ => ⟨S50000x2048, .f32⟩
  | .hbm, ⟨10, _⟩ => ⟨S_, .f32⟩
  | .hbm, ⟨11, _⟩ => ⟨S50000x2048, .f32⟩
  | .hbm, ⟨12, _⟩ => ⟨S50000x2048, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x512, .f32⟩
  | .hbm, ⟨30, _⟩ => ⟨S_, .f32⟩
  | .hbm, ⟨31, _⟩ => ⟨S50000x512, .f32⟩
  | .hbm, ⟨32, _⟩ => ⟨S400000x1, .i32⟩
  | .hbm, ⟨33, _⟩ => ⟨S50000x512, .f32⟩
  | .hbm, ⟨34, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S50000x2048_0_1 : S1x2048.BroadcastsInDim S50000x2048 (![0, 1] : Fin 2 → Fin S50000x2048.rank)
  bcast_S_S50000x2048 : S_.BroadcastsInDim S50000x2048 (![] : Fin 0 → Fin S50000x2048.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  dot_S50000x512_S512x2048_S50000x2048_1_0_0_1_n_n_wf : DotDims.WF S50000x512 S512x2048 S50000x2048 [1] [0] [0] [1] [] []
  dot_S50000x2048_S2048x512_S50000x512_1_0_0_1_n_n_wf : DotDims.WF S50000x2048 S2048x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1

variable [Facts₀]

def dot_S50000x512_S512x2048_S50000x2048_1_0_0_1_n_n : DotDims S50000x512 S512x2048 S50000x2048 where
  lhsContracting := [1]
  rhsContracting := [0]
  lhsNonContracting := [0]
  rhsNonContracting := [1]
  lhsBatch := []
  rhsBatch := []
  wf := dot_S50000x512_S512x2048_S50000x2048_1_0_0_1_n_n_wf
def dot_S50000x2048_S2048x512_S50000x512_1_0_0_1_n_n : DotDims S50000x2048 S2048x512 S50000x512 where
  lhsContracting := [1]
  rhsContracting := [0]
  lhsNonContracting := [0]
  rhsNonContracting := [1]
  lhsBatch := []
  rhsBatch := []
  wf := dot_S50000x2048_S2048x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf

class Facts : Prop extends Facts₀ where

variable [Facts]
-- ==== Proof.PreIdx.lean ====
/-
  The added conjunct of the precondition, read back: every entry of the edge list is a node number, 0 ≤ e < 50000.
  The precondition is a conjunction ending in "all entries satisfy (e ≥ 0) and (e < 50000)"; a conjunction of bits is
  one exactly when both are, an all-reduction by "and" that came out one met only ones, and a signed comparison of
  words is the comparison of their integer values.
-/
import proofs.«418311_j56573309223702_2_alg».proof.Proof.Gen.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

instance : Subsingleton S_.Idx := ⟨fun a b => funext fun d => d.elim0⟩

/-- Every entry of an edge list is a node number. -/
def InRange (e : IVec S2x400000 32) : Prop := ∀ i, 0 ≤ (e i).toInt ∧ (e i).toInt < 50000

theorem inRange_of_pre {F : FTy → Type} [FloatOps F] (a0 : FVec F S50000x512 .f32) (a1 : IVec S2x400000 32) (a2 : FVec F S512x2048 .f32)
    (a3 : FVec F S2048 .f32) (a4 : FVec F S2048x512 .f32) (a5 : FVec F S512 .f32)
    (h : fn (F := F) a0 a1 a2 a3 a4 a5 = fun _ => 1#1) : InRange a1 := by
  intro i
  have h0 := congrFun h ix0
  dsimp only [fn, fn_part1] at h0
  obtain ⟨-, h29⟩ := IntOp.andi_eq_one.1 h0
  have hi := Host.reduce_andi_all _ _ _ _ ix0 h29 i
  obtain ⟨hge, hlt⟩ := IntOp.andi_eq_one.1 hi
  have h1 : (0#32 : BitVec 32).toInt ≤ (a1 i).toInt := IntOp.cmpi_sge.1 hge
  have h2 : (a1 i).toInt < (50000#32 : BitVec 32).toInt := IntOp.cmpi_slt.1 hlt
  have z0 : (0#32 : BitVec 32).toInt = 0 := by decide
  have z1 : (50000#32 : BitVec 32).toInt = 50000 := by decide
  rw [z0] at h1
  rw [z1] at h2
  exact ⟨h1, h2⟩

end Cert.Pre_finite_inputs.Range

end
-- ==== Proof.EdgeLaw.lean ====
/-
  The edge stage, on whole arrays. After the launch the kernel gathers the rows `h[col]` (a gather that fills a row with
  a non-number when its index is out of range, indices below zero first wrapped around) and adds them into the rows
  `row` of `h` itself (again wrapping indices below zero); the reference gathers `h[col]` with the same wrap, adds the
  rows into a zero array at the unwrapped `row`, and adds `h` afterwards.
  When every entry of the edge list is a node number (0 ≤ e < 50000) the two agree:
  the wrap changes nothing, the in-range test is true of every edge so no row is filled, and an accumulating scatter
  into `h` is `h` plus the same scatter into zeros, since `h + s = h + (0 + s)` on the extended reals.
-/
import proofs.«418311_j56573309223702_2_alg».proof.Proof.Gen.KernelIdeal
import proofs.«418311_j56573309223702_2_alg».proof.Proof.Gen.ReferenceIdeal.Read
import proofs.«418311_j56573309223702_2_alg».proof.Proof.PreIdx
import Idealize.ShloMosaic.Lib.ValueIdx
import Idealize.ShloMosaic.PureOps.Ideal.Laws

noncomputable section

namespace Cert.KernelIdeal.Edge

open Cert.KernelIdeal Idealize.ShloMosaic Idealize.ShloMosaic.ValueIdx
open Cert.KernelIdeal.Facts₀ Cert.KernelIdeal.Facts
open Cert.Pre_finite_inputs.Range (InRange)

/-! ## The kernel's edge stage as a function of the node features and the edge list -/

/-- Row `a` of the edge list as a vector of 400000 words. -/
def edgeRow0 (e : IVec S2x400000 32) : IVec S400000 32 :=
  shapeCast S400000 (extractStridedSlice S1x400000 ![0, 0] e slices_S2x400000_S1x400000_0_0) shapeCasts_S1x400000_S400000
def edgeRow1 (e : IVec S2x400000 32) : IVec S400000 32 :=
  shapeCast S400000 (extractStridedSlice S1x400000 ![1, 0] e slices_S2x400000_S1x400000_1_0) shapeCasts_S1x400000_S400000

/-- An index below zero counts from the end: 50000 is added to it. -/
def wrapNeg (v : IVec S400000 32) : IVec S400000 32 :=
  select (cmpi .slt v (broadcastInDim S400000 ![] bcast_S_S400000 (constantI S_ 32 0#32)))
    (addi v (broadcastInDim S400000 ![] bcast_S_S400000 (constantI S_ 32 50000#32))) v

/-- The gather's index column. -/
def colIdx (e : IVec S2x400000 32) : IVec S400000x1 32 :=
  broadcastInDim S400000x1 ![0] bcast_S400000_S400000x1_0 (wrapNeg (edgeRow1 e))

/-- Per edge: is the gather's index a row of the array (0 ≤ index ≤ 49999)? -/
def inBounds (c5 : IVec S400000x1 32) : IVec S400000 1 :=
  Host.reduce IntOp.andi
    (andi (cmpi .sge c5 (broadcastInDim S400000x1 ![] bcast_S_S400000x1 (constantI S_ 32 0#32)))
      (cmpi .sle c5 (broadcastInDim S400000x1 ![0, 1] bcast_S1x1_S400000x1_0_1 (broadcastInDim S1x1 ![1] bcast_S1_S1x1_1 (constantI S1 32 49999#32)))))
    (constantI S_ 1 1#1) reducesTo_S400000x1_S400000_d1 h_S_

/-- The gathered rows, a row whose index is out of range filled with the non-number. -/
def taken (H : FVec Ideal S50000x512 .f32) (e : IVec S2x400000 32) : FVec Ideal S400000x512 .f32 :=
  select (broadcastInDim S400000x512 ![0] bcast_S400000_S400000x512_0 (inBounds (colIdx e)))
    (Host.gather gather_S50000x512_S400000x1_S400000x512_1_0_n_n_0_1_1512 H (colIdx e))
    (broadcastInDim S400000x512 ![] bcast_S_S400000x512 (constant S_ .f32 0x7FC00000#32))

/-- The kernel's result from the node features: the gathered rows added into the rows `row` of the features. -/
def edgeStage (H : FVec Ideal S50000x512 .f32) (e : IVec S2x400000 32) : FVec Ideal S50000x512 .f32 :=
  Host.scatterAdd scatter_S50000x512_S400000x1_S400000x512_1_0_0_1 H
    (broadcastInDim S400000x1 ![0] bcast_S400000_S400000x1_0 (wrapNeg (edgeRow0 e))) (taken H e)

/-! ## On node numbers -/

theorem edgeRow0_inRange {e : IVec S2x400000 32} (he : InRange e) (i : S400000.Idx) :
    0 ≤ (edgeRow0 e i).toInt ∧ (edgeRow0 e i).toInt < 50000 := he _
theorem edgeRow1_inRange {e : IVec S2x400000 32} (he : InRange e) (i : S400000.Idx) :
    0 ≤ (edgeRow1 e i).toInt ∧ (edgeRow1 e i).toInt < 50000 := he _

/-- Wrapping changes no index that is not below zero. -/
theorem wrapNeg_of_nonneg (v : IVec S400000 32) (hv : ∀ i, 0 ≤ (v i).toInt) : wrapNeg v = v := by
  funext i
  show Scalar.select (IntOp.cmpi .slt (v i) 0#32) _ (v i) = v i
  have h0 : IntOp.cmpi .slt (v i) 0#32 = 0#1 := eq_zero_of_ne_one fun h => by
    have := IntOp.cmpi_slt.1 h
    have z0 : (0#32 : BitVec 32).toInt = 0 := by decide
    have := hv i
    omega
  rw [h0, select_zero]

/-- A left fold by "and" over ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Every edge whose gather index is a node number passes the in-range test. -/
theorem inBounds_of_inRange (c5 : IVec S400000x1 32) (h : ∀ i, 0 ≤ (c5 i).toInt ∧ (c5 i).toInt < 50000) :
    inBounds c5 = fun _ => 1#1 := by
  funext j
  unfold inBounds Host.reduce
  refine foldl_andi_ones _ (fun n => ?_) _
  refine IntOp.andi_eq_one.2 ⟨IntOp.cmpi_sge.2 ?_, IntOp.cmpi_sle.2 ?_⟩
  · show (0#32 : BitVec 32).toInt ≤ _
    have z0 : (0#32 : BitVec 32).toInt = 0 := by decide
    rw [z0]; exact (h _).1
  · show _ ≤ (49999#32 : BitVec 32).toInt
    have z1 : (49999#32 : BitVec 32).toInt = 49999 := by decide
    rw [z1]; have := (h (S400000x1.rowMajor.symm n)).2; omega

/-- On an edge list of node numbers the kernel's edge stage is the reference's: the features plus the gathered rows
    added into a zero array. -/
theorem edgeStage_eq_ref (x0 : FVec Ideal S50000x512 .f32) (e : IVec S2x400000 32) (x2 : FVec Ideal S512x2048 .f32)
    (x3 : FVec Ideal S2048 .f32) (x4 : FVec Ideal S2048x512 .f32) (x5 : FVec Ideal S512 .f32) (he : InRange e) :
    edgeStage (Cert.ReferenceIdeal.Read.val_main_v8 (F := Ideal) x0 x2 x3 x4 x5) e
      = Cert.ReferenceIdeal.Read.val_main_v23 (F := Ideal) x0 e x2 x3 x4 x5 := by
  have hr : wrapNeg (edgeRow0 e) = edgeRow0 e := wrapNeg_of_nonneg _ fun i => (edgeRow0_inRange he i).1
  have hc : wrapNeg (edgeRow1 e) = edgeRow1 e := wrapNeg_of_nonneg _ fun i => (edgeRow1_inRange he i).1
  have hb : inBounds (colIdx e) = fun _ => 1#1 := inBounds_of_inRange _ fun i => by
    unfold colIdx; rw [hc]; exact he _
  unfold edgeStage taken
  rw [hr, hb]
  funext i
  show _ + _ = _ + (Ideal.ofBits .f32 0x00000000#32 + _)
  rw [Ideal.ofBits_zero_f32, zero_add]
  rfl

end Cert.KernelIdeal.Edge

end
-- ==== Proof.KPay.lean ====
/-
  The kernel body's one stored value, read at an entry. For a row block `x` of 2000 rows the body computes
  `max(x·W1 + b1, 0)·W2 + b2` with both products accumulated into a zero splat; the two changes of float format are
  the identity on extended reals. Entry (p, q) is therefore
  `(∑ k < 2048, max((∑ j < 512, x[p,j]·W1[j,k]) + b1[0,k], 0) · W2[k,q]) + b2[0,q]`.
  Each product is first read as a sum over its one contracted axis (the axis lemmas say which coordinates of the
  operands a contraction index names), then the pointwise and layout operations are pushed through the index.
-/
import proofs.«418311_j56573309223702_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mlp

open Cert.KernelIdeal Cert.KernelIdeal.Gen Idealize.ShloMosaic Idealize.ShloMosaic.ValueIdx

/-! ## The first product, rows × 512 times 512 × 2048 -/

theorem lhs_mm1_0 (i : S2000x2048.Idx) (q : dot_S2000x512_S512x2048_S2000x2048_1_0_0_1_n_n.contr.Idx) :
    (dot_S2000x512_S512x2048_S2000x2048_1_0_0_1_n_n.lhsIdx i q 0).val = (i 0).val := by
  unfold DotDims.lhsIdx
  rw [dif_neg (show ¬(0 : Fin S2000x512.rank) ∈ dot_S2000x512_S512x2048_S2000x2048_1_0_0_1_n_n.lhsBatch by decide), dif_pos (show (0 : Fin S2000x512.rank) ∈ dot_S2000x512_S512x2048_S2000x2048_1_0_0_1_n_n.lhsNonContracting by decide)]
  rfl
theorem lhs_mm1_1 (i : S2000x2048.Idx) (q : dot_S2000x512_S512x2048_S2000x2048_1_0_0_1_n_n.contr.Idx) :
    (dot_S2000x512_S512x2048_S2000x2048_1_0_0_1_n_n.lhsIdx i q 1).val = (q ⟨0, by decide⟩).val :=
  dot_S2000x512_S512x2048_S2000x2048_1_0_0_1_n_n.lhsIdx_val_of_single rfl i q
theorem rhs_mm1_0 (i : S2000x2048.Idx) (q : dot_S2000x512_S512x2048_S2000x2048_1_0_0_1_n_n.contr.Idx) :
    (dot_S2000x512_S512x2048_S2000x2048_1_0_0_1_n_n.rhsIdx i q 0).val = (q ⟨0, by decide⟩).val :=
  dot_S2000x512_S512x2048_S2000x2048_1_0_0_1_n_n.rhsIdx_val_of_single rfl i q
theorem rhs_mm1_1 (i : S2000x2048.Idx) (q : dot_S2000x512_S512x2048_S2000x2048_1_0_0_1_n_n.contr.Idx) :
    (dot_S2000x512_S512x2048_S2000x2048_1_0_0_1_n_n.rhsIdx i q 1).val = (i 1).val := by
  unfold DotDims.rhsIdx
  rw [dif_neg (show ¬(1 : Fin S512x2048.rank) ∈ dot_S2000x512_S512x2048_S2000x2048_1_0_0_1_n_n.rhsBatch by decide), dif_pos (show (1 : Fin S512x2048.rank) ∈ dot_S2000x512_S512x2048_S2000x2048_1_0_0_1_n_n.rhsNonContracting by decide)]
  rfl

/-- Entry (p, k) of the first product into a zero accumulator: row p of the left operand against column k of the right. -/
theorem mm1_apply (l : FVec Ideal S2000x512 .bf16) (r : FVec Ideal S512x2048 .bf16) (p : Fin 2000) (k : Fin 2048) :
    matmul dot_S2000x512_S512x2048_S2000x2048_1_0_0_1_n_n none l r (constant S2000x2048 .f32 0x00000000#32) (ix2 p k)
      = ∑ j : Fin 512, l (ix2 p j) * r (ix2 j k) := by
  simp only [matmul]
  rw [Ideal.matmul_constant_zero_apply, ← Equiv.sum_comp (ValueIdx.contrEquiv1 dot_S2000x512_S512x2048_S2000x2048_1_0_0_1_n_n 512 rfl rfl).symm]
  refine Finset.sum_congr rfl fun j _ => ?_
  have hj := ValueIdx.contrEquiv1_symm_val dot_S2000x512_S512x2048_S2000x2048_1_0_0_1_n_n 512 rfl rfl j
  have el : dot_S2000x512_S512x2048_S2000x2048_1_0_0_1_n_n.lhsIdx (ix2 p k) ((ValueIdx.contrEquiv1 dot_S2000x512_S512x2048_S2000x2048_1_0_0_1_n_n 512 rfl rfl).symm j) = ix2 p j := funext fun a => Fin.ext (by
    match a with
    | ⟨0, _⟩ => exact lhs_mm1_0 _ _
    | ⟨1, _⟩ => exact (lhs_mm1_1 _ _).trans hj)
  have er : dot_S2000x512_S512x2048_S2000x2048_1_0_0_1_n_n.rhsIdx (ix2 p k) ((ValueIdx.contrEquiv1 dot_S2000x512_S512x2048_S2000x2048_1_0_0_1_n_n 512 rfl rfl).symm j) = ix2 j k := funext fun a => Fin.ext (by
    match a with
    | ⟨0, _⟩ => exact (rhs_mm1_0 _ _).trans hj
    | ⟨1, _⟩ => exact rhs_mm1_1 _ _)
  rw [el, er]

/-! ## The second product, rows × 2048 times 2048 × 512 -/

theorem lhs_mm2_0 (i : S2000x512.Idx) (q : dot_S2000x2048_S2048x512_S2000x512_1_0_0_1_n_n.contr.Idx) :
    (dot_S2000x2048_S2048x512_S2000x512_1_0_0_1_n_n.lhsIdx i q 0).val = (i 0).val := by
  unfold DotDims.lhsIdx
  rw [dif_neg (show ¬(0 : Fin S2000x2048.rank) ∈ dot_S2000x2048_S2048x512_S2000x512_1_0_0_1_n_n.lhsBatch by decide), dif_pos (show (0 : Fin S2000x2048.rank) ∈ dot_S2000x2048_S2048x512_S2000x512_1_0_0_1_n_n.lhsNonContracting by decide)]
  rfl
theorem lhs_mm2_1 (i : S2000x512.Idx) (q : dot_S2000x2048_S2048x512_S2000x512_1_0_0_1_n_n.contr.Idx) :
    (dot_S2000x2048_S2048x512_S2000x512_1_0_0_1_n_n.lhsIdx i q 1).val = (q ⟨0, by decide⟩).val :=
  dot_S2000x2048_S2048x512_S2000x512_1_0_0_1_n_n.lhsIdx_val_of_single rfl i q
theorem rhs_mm2_0 (i : S2000x512.Idx) (q : dot_S2000x2048_S2048x512_S2000x512_1_0_0_1_n_n.contr.Idx) :
    (dot_S2000x2048_S2048x512_S2000x512_1_0_0_1_n_n.rhsIdx i q 0).val = (q ⟨0, by decide⟩).val :=
  dot_S2000x2048_S2048x512_S2000x512_1_0_0_1_n_n.rhsIdx_val_of_single rfl i q
theorem rhs_mm2_1 (i : S2000x512.Idx) (q : dot_S2000x2048_S2048x512_S2000x512_1_0_0_1_n_n.contr.Idx) :
    (dot_S2000x2048_S2048x512_S2000x512_1_0_0_1_n_n.rhsIdx i q 1).val = (i 1).val := by
  unfold DotDims.rhsIdx
  rw [dif_neg (show ¬(1 : Fin S2048x512.rank) ∈ dot_S2000x2048_S2048x512_S2000x512_1_0_0_1_n_n.rhsBatch by decide), dif_pos (show (1 : Fin S2048x512.rank) ∈ dot_S2000x2048_S2048x512_S2000x512_1_0_0_1_n_n.rhsNonContracting by decide)]
  rfl

/-- Entry (p, q) of the second product into a zero accumulator. -/
theorem mm2_apply (l : FVec Ideal S2000x2048 .bf16) (r : FVec Ideal S2048x512 .bf16) (p : Fin 2000) (q : Fin 512) :
    matmul dot_S2000x2048_S2048x512_S2000x512_1_0_0_1_n_n none l r (constant S2000x512 .f32 0x00000000#32) (ix2 p q)
      = ∑ k : Fin 2048, l (ix2 p k) * r (ix2 k q) := by
  simp only [matmul]
  rw [Ideal.matmul_constant_zero_apply, ← Equiv.sum_comp (ValueIdx.contrEquiv1 dot_S2000x2048_S2048x512_S2000x512_1_0_0_1_n_n 2048 rfl rfl).symm]
  refine Finset.sum_congr rfl fun k _ => ?_
  have hk := ValueIdx.contrEquiv1_symm_val dot_S2000x2048_S2048x512_S2000x512_1_0_0_1_n_n 2048 rfl rfl k
  have el : dot_S2000x2048_S2048x512_S2000x512_1_0_0_1_n_n.lhsIdx (ix2 p q) ((ValueIdx.contrEquiv1 dot_S2000x2048_S2048x512_S2000x512_1_0_0_1_n_n 2048 rfl rfl).symm k) = ix2 p k := funext fun a => Fin.ext (by
    match a with
    | ⟨0, _⟩ => exact lhs_mm2_0 _ _
    | ⟨1, _⟩ => exact (lhs_mm2_1 _ _).trans hk)
  have er : dot_S2000x2048_S2048x512_S2000x512_1_0_0_1_n_n.rhsIdx (ix2 p q) ((ValueIdx.contrEquiv1 dot_S2000x2048_S2048x512_S2000x512_1_0_0_1_n_n 2048 rfl rfl).symm k) = ix2 k q := funext fun a => Fin.ext (by
    match a with
    | ⟨0, _⟩ => exact (rhs_mm2_0 _ _).trans hk
    | ⟨1, _⟩ => exact rhs_mm2_1 _ _)
  rw [el, er]

/-! ## The stored value at an entry -/

/-- The hidden layer of a row block at (p, k): the first product plus the bias row, cut off below at zero. -/
def hid (x : Vec Ideal S2000x512 .f32) (w1 : Vec Ideal S512x2048 .bf16) (b1 : Vec Ideal S1x2048 .f32) (p : Fin 2000) (k : Fin 2048) : EReal :=
  max ((∑ j : Fin 512, x (ix2 p j) * w1 (ix2 j k)) + b1 (ix2 (0 : Fin 1) k)) (Ideal.ofBits .f32 0x00000000#32)

/-- Entry (p, q) of what the body stores, from the five loaded blocks. -/
theorem pay_apply (x : Vec Ideal S2000x512 .f32) (w1 : Vec Ideal S512x2048 .bf16) (b1 : Vec Ideal S1x2048 .f32)
    (w2 : Vec Ideal S2048x512 .bf16) (b2 : Vec Ideal S1x512 .f32) (p : Fin 2000) (q : Fin 512) :
    k0_pay1 (F := Ideal) x w1 b1 w2 b2 (ix2 p q)
      = (∑ k : Fin 2048, hid x w1 b1 p k * w2 (ix2 k q)) + b2 (ix2 (0 : Fin 1) q) := by
  unfold k0_pay1
  refine (addf_apply _ _ _).trans ?_
  refine congrArg₂ (· + ·) ?_ ?_
  · refine (mm2_apply _ _ p q).trans ?_
    refine Finset.sum_congr rfl fun k _ => ?_
    refine congrArg₂ (· * ·) ?_ ?_
    · show maximumf (F := Ideal) (φ := .f32) (s := S2000x2048) _ _ (ix2 p k) = _
      refine (maximumf_apply _ _ _).trans ?_
      unfold hid
      refine congrArg₂ max ?_ rfl
      refine (addf_apply _ _ _).trans ?_
      refine congrArg₂ (· + ·) ?_ ?_
      · refine (mm1_apply _ _ p k).trans ?_
        refine Finset.sum_congr rfl fun j _ => ?_
        rw [shapeCast_self]
        rfl
      · rw [shapeCast_self]
        exact broadcastTo_1b_ab_apply b1 _ p k
    · rw [shapeCast_self]
  · rw [shapeCast_self]
    exact broadcastTo_1b_ab_apply b2 _ p q

end Cert.KernelIdeal.Mlp

end
-- ==== Proof.RefFeat.lean ====
/-
  The reference's node features, read at an entry. The reference computes `h = max(x·W1 + b1, 0)·W2 + b2` on whole
  arrays with two host contractions; entry (r, q) is
  `(∑ k < 2048, max((∑ j < 512, x[r,j]·W1[j,k]) + b1[k], 0) · W2[k,q]) + b2[q]`,
  obtained by reading each stage at an index and identifying the composed operand indices with plain coordinates.
-/
import proofs.«418311_j56573309223702_2_alg».proof.Proof.Gen.ReferenceIdeal.Read
import Idealize.ShloMosaic.Lib.ValueIdx

noncomputable section

namespace Cert.ReferenceIdeal.Feat

open Cert.ReferenceIdeal Cert.ReferenceIdeal.Read Idealize.ShloMosaic Idealize.ShloMosaic.ValueIdx

/-- The reference's hidden layer at (r, k). -/
def hid (x : FVec Ideal S50000x512 .f32) (w1 : FVec Ideal S512x2048 .f32) (b1 : FVec Ideal S2048 .f32) (r : Fin 50000) (k : Fin 2048) : EReal :=
  max ((∑ j : Fin 512, x (ix2 r j) * w1 (ix2 j k)) + b1 (ix1 k)) (Ideal.ofBits .f32 0x00000000#32)

theorem hid_apply (x : FVec Ideal S50000x512 .f32) (w1 : FVec Ideal S512x2048 .f32) (b1 : FVec Ideal S2048 .f32) (r : Fin 50000) (k : Fin 2048) :
    val_main_v4 (F := Ideal) x w1 b1 (ix2 r k) = hid x w1 b1 r k := by
  rw [val_main_v4_apply, val_main_v3_apply, val_main_v0_apply, val_main_v2_apply, val_main_v1_apply,
    val_main_call0_v0_apply, val_main_call0_cst_apply]
  unfold hid
  refine congrArg₂ max (congrArg₂ (· + ·) (Finset.sum_congr rfl fun j _ => ?_) ?_) rfl
  · have e1 : lidx_main_v0 (ix2 r k) j = ix2 r j := funext fun a => Fin.ext (by
      match a with
      | ⟨0, _⟩ => rfl
      | ⟨1, _⟩ => rfl)
    have e2 : ridx_main_v0 (ix2 r k) j = ix2 j k := funext fun a => Fin.ext (by
      match a with
      | ⟨0, _⟩ => rfl
      | ⟨1, _⟩ => rfl)
    rw [e1, e2]
  · exact congrArg b1 (funext fun a => Fin.ext (by
      match a with
      | ⟨0, _⟩ => rfl))

/-- Entry (r, q) of the reference's node features. -/
theorem feat_apply (x : FVec Ideal S50000x512 .f32) (w1 : FVec Ideal S512x2048 .f32) (b1 : FVec Ideal S2048 .f32)
    (w2 : FVec Ideal S2048x512 .f32) (b2 : FVec Ideal S512 .f32) (r : Fin 50000) (q : Fin 512) :
    val_main_v8 (F := Ideal) x w1 b1 w2 b2 (ix2 r q)
      = (∑ k : Fin 2048, hid x w1 b1 r k * w2 (ix2 k q)) + b2 (ix1 q) := by
  rw [val_main_v8_apply, val_main_v5_apply, val_main_v7_apply, val_main_v6_apply]
  refine congrArg₂ (· + ·) (Finset.sum_congr rfl fun k _ => ?_) ?_
  · have e1 : lidx_main_v5 (ix2 r q) k = ix2 r k := funext fun a => Fin.ext (by
      match a with
      | ⟨0, _⟩ => rfl
      | ⟨1, _⟩ => rfl)
    have e2 : ridx_main_v5 (ix2 r q) k = ix2 k q := funext fun a => Fin.ext (by
      match a with
      | ⟨0, _⟩ => rfl
      | ⟨1, _⟩ => rfl)
    rw [e1, e2, hid_apply]
  · exact congrArg b2 (funext fun a => Fin.ext (by
      match a with
      | ⟨0, _⟩ => rfl))

end Cert.ReferenceIdeal.Feat

end
-- ==== Proof.KVal.lean ====
/-
  The kernel's one launch as a whole-array function. Grid point t takes rows 2000·t … 2000·t + 1999 of `x` and the
  whole of the two weight matrices and the two bias rows, and writes back rows 2000·t … of the result. Entry by entry
  the written block is the reference's node-feature array `h = max(x·W1 + b1, 0)·W2 + b2` restricted to those rows:
  the two changes of float format made before the launch are the identity on extended reals and the two reshapes of
  the biases keep their entries. The 25 row blocks tile the 50000 rows, so after the launch the result array is `h`.
-/
import proofs.«418311_j56573309223702_2_alg».proof.Proof.Gen.KernelIdeal.Frame
import proofs.«418311_j56573309223702_2_alg».proof.Proof.KPay
import proofs.«418311_j56573309223702_2_alg».proof.Proof.RefFeat
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The launch's operands as the region finds them -/

theorem V_w1 (c : Dev nD) : (V m c main_call0_v0 : S512x2048.Idx → EReal)
    = (truncf .bf16 (m ((c : Thread nD τ).loc main_arg2) : FVec Ideal S512x2048 .f32) bitsLt_bf16_f32 : FVec Ideal S512x2048 .bf16) := by
  show StableHlo.after hostOps0 (fun b => m (c, b)) (Proc.devRef .tc main_call0_v0) = _
  after_results
  rfl

theorem V_w2 (c : Dev nD) : (V m c main_call0_v1 : S2048x512.Idx → EReal)
    = (truncf .bf16 (m ((c : Thread nD τ).loc main_arg4) : FVec Ideal S2048x512 .f32) bitsLt_bf16_f32 : FVec Ideal S2048x512 .bf16) := by
  show StableHlo.after hostOps0 (fun b => m (c, b)) (Proc.devRef .tc main_call0_v1) = _
  after_results
  rfl

theorem V_b1 (c : Dev nD) : (V m c main_call0_v2 : S1x2048.Idx → EReal)
    = shapeCast S1x2048 (m ((c : Thread nD τ).loc main_arg3) : FVec Ideal S2048 .f32) shapeCasts_S2048_S1x2048 := by
  show StableHlo.after hostOps0 (fun b => m (c, b)) (Proc.devRef .tc main_call0_v2) = _
  after_results
  rfl

theorem V_b2 (c : Dev nD) : (V m c main_call0_v3 : S1x512.Idx → EReal)
    = shapeCast S1x512 (m ((c : Thread nD τ).loc main_arg5) : FVec Ideal S512 .f32) shapeCasts_S512_S1x512 := by
  show StableHlo.after hostOps0 (fun b => m (c, b)) (Proc.devRef .tc main_call0_v3) = _
  after_results
  rfl

/-! ## The index maps over the grid -/

/-- The row-block windows (the input rows and the result rows) sit at block (t, 0); the other four at block (0, 0). -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## Each input block at an entry -/

theorem xblk_apply (c : Dev nD) (t : Fin cfg0.N) (p : Fin 2000) (j : Fin 512) (r : Fin 50000) (hr : r.val = t.val * 2000 + p.val) :
    (iblk m c 0 t : Vec Ideal S2000x512 .f32) (ix2 p j) = (m ((c : Thread nD τ).loc main_arg0) : S50000x512.Idx → EReal) (ix2 r j) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 2000 + 1 * p.val = r.val; omega
  | ⟨1, _⟩ => show win0_0.index t (1 : Fin 2) * 512 + 1 * j.val = j.val; omega

theorem w1blk_apply (c : Dev nD) (t : Fin cfg0.N) (j : Fin 512) (k : Fin 2048) :
    (iblk m c 1 t : Vec Ideal S512x2048 .bf16) (ix2 j k) = (m ((c : Thread nD τ).loc main_arg2) : S512x2048.Idx → EReal) (ix2 j k) := by
  obtain ⟨-, -, -, -, e0, e1, -⟩ := idx_facts t
  unfold iblk
  rw [View.read_apply]
  show V m c main_call0_v0 _ = _
  rw [V_w1]
  show (m ((c : Thread nD τ).loc main_arg2) : S512x2048.Idx → EReal) _ = _
  congr 1
  funext a
  apply Fin.ext
  match a with
  | ⟨0, _⟩ => show win0_1.index t (0 : Fin 2) * 512 + 1 * j.val = j.val; omega
  | ⟨1, _⟩ => show win0_1.index t (1 : Fin 2) * 2048 + 1 * k.val = k.val; omega

theorem w2blk_apply (c : Dev nD) (t : Fin cfg0.N) (k : Fin 2048) (q : Fin 512) :
    (iblk m c 3 t : Vec Ideal S2048x512 .bf16) (ix2 k q) = (m ((c : Thread nD τ).loc main_arg4) : S2048x512.Idx → EReal) (ix2 k q) := by
  obtain ⟨-, -, -, -, -, -, -, -, e0, e1, -⟩ := idx_facts t
  unfold iblk
  rw [View.read_apply]
  show V m c main_call0_v1 _ = _
  rw [V_w2]
  show (m ((c : Thread nD τ).loc main_arg4) : S2048x512.Idx → EReal) _ = _
  congr 1
  funext a
  apply Fin.ext
  match a with
  | ⟨0, _⟩ => show win0_3.index t (0 : Fin 2) * 2048 + 1 * k.val = k.val; omega
  | ⟨1, _⟩ => show win0_3.index t (1 : Fin 2) * 512 + 1 * q.val = q.val; omega

theorem b1blk_apply (c : Dev nD) (t : Fin cfg0.N) (k : Fin 2048) :
    (iblk m c 2 t : Vec Ideal S1x2048 .f32) (ix2 (0 : Fin 1) k) = (m ((c : Thread nD τ).loc main_arg3) : S2048.Idx → EReal) (ix1 k) := by
  obtain ⟨-, -, -, -, -, -, e0, e1, -⟩ := idx_facts t
  unfold iblk
  rw [View.read_apply]
  show V m c main_call0_v2 _ = _
  rw [V_b1]
  refine shapeCast_apply _ _ _ _ ?_
  show (S2048.rowMajor (ix1 k)).val = (S1x2048.rowMajor _).val
  rw [Shape.rowMajor_val_two, Shape.rowMajor_val_one]
  show k.val = (win0_2.index t (0 : Fin 2) * 1 + 1 * 0) * 2048 + (win0_2.index t (1 : Fin 2) * 2048 + 1 * k.val)
  omega

theorem b2blk_apply (c : Dev nD) (t : Fin cfg0.N) (q : Fin 512) :
    (iblk m c 4 t : Vec Ideal S1x512 .f32) (ix2 (0 : Fin 1) q) = (m ((c : Thread nD τ).loc main_arg5) : S512.Idx → EReal) (ix1 q) := by
  obtain ⟨-, -, -, -, -, -, -, -, -, -, e0, e1⟩ := idx_facts t
  unfold iblk
  rw [View.read_apply]
  show V m c main_call0_v3 _ = _
  rw [V_b2]
  refine shapeCast_apply _ _ _ _ ?_
  show (S512.rowMajor (ix1 q)).val = (S1x512.rowMajor _).val
  rw [Shape.rowMajor_val_two, Shape.rowMajor_val_one]
  show q.val = (win0_4.index t (0 : Fin 2) * 1 + 1 * 0) * 512 + (win0_4.index t (1 : Fin 2) * 512 + 1 * q.val)
  omega

/-! ## What a grid point writes back, the cover, and the array after the launch -/

/-- The reference's node-feature array `max(x·W1 + b1, 0)·W2 + b2` of the launch arguments. -/
abbrev feat (c : Dev nD) : S50000x512.Idx → EReal :=
  Cert.ReferenceIdeal.Read.val_main_v8 (F := Ideal) (m ((c : Thread nD τ).loc main_arg0)) (m ((c : Thread nD τ).loc main_arg2))
    (m ((c : Thread nD τ).loc main_arg3)) (m ((c : Thread nD τ).loc main_arg4)) (m ((c : Thread nD τ).loc main_arg5))

/-- Grid point t writes back rows 2000·t … 2000·t + 1999 of the node-feature array. -/
theorem flushed_eq (c : Dev nD) (t : Fin cfg0.N) :
    (dats m 0 c).flushed 5 t = ((cfg0.win 5).blk t).view.read (Elt Ideal) (feat m c) := by
  show (cfg0.win 5).cut (grid0.coords t) ((dats m 0 c).after 5 t) = _
  rw [after0_5]
  unfold out0_5
  rw [View.canon_unit_zero hz]
  simp only [View.ld_unit_zero (S := S2000x512) hz, View.ld_unit_zero (S := S512x2048) hz, View.ld_unit_zero (S := S1x2048) hz,
    View.ld_unit_zero (S := S2048x512) hz, View.ld_unit_zero (S := S1x512) hz]
  funext y
  obtain ⟨p, q, rfl⟩ : ∃ (p : Fin 2000) (q : Fin 512), y = ix2 p q := ⟨y 0, y 1, eq_ix2 y⟩
  obtain ⟨-, -, e0, e1, -⟩ := idx_facts t
  have ht : t.val < 25 := by have h : t.val < cfg0.N := t.isLt; have hN : cfg0.N = 25 := N_0; omega
  have hr : t.val * 2000 + p.val < 50000 := by have := p.isLt; omega
  show k0_pay1 (F := Ideal) (iblk m c 0 t) (iblk m c 1 t) (iblk m c 2 t) (iblk m c 3 t) (iblk m c 4 t) (ix2 p q)
    = feat m c (((cfg0.win 5).blk t).view.emb (ix2 p q))
  have hemb : ((cfg0.win 5).blk t).view.emb (ix2 p q) = ix2 (⟨t.val * 2000 + p.val, hr⟩ : Fin 50000) q := funext fun a => Fin.ext (by
    match a with
    | ⟨0, _⟩ => show win0_5.index t (0 : Fin 2) * 2000 + 1 * p.val = t.val * 2000 + p.val; omega
    | ⟨1, _⟩ => show win0_5.index t (1 : Fin 2) * 512 + 1 * q.val = q.val; omega)
  rw [hemb]
  refine (Cert.KernelIdeal.Mlp.pay_apply (iblk m c 0 t) (iblk m c 1 t) (iblk m c 2 t) (iblk m c 3 t) (iblk m c 4 t) p q).trans ?_
  refine Eq.trans ?_ (Cert.ReferenceIdeal.Feat.feat_apply _ _ _ _ _ ⟨t.val * 2000 + p.val, hr⟩ q).symm
  refine congrArg₂ (· + ·) (Finset.sum_congr rfl fun k _ => ?_) (b2blk_apply m c t q)
  refine congrArg₂ (· * ·) ?_ (w2blk_apply m c t k q)
  unfold Cert.KernelIdeal.Mlp.hid Cert.ReferenceIdeal.Feat.hid
  refine congrArg₂ max (congrArg₂ (· + ·) (Finset.sum_congr rfl fun j _ => ?_) (b1blk_apply m c t k)) rfl
  exact congrArg₂ (· * ·) (xblk_apply m c t p j ⟨t.val * 2000 + p.val, hr⟩ rfl) (w1blk_apply m c t j k)

/-- An entry of the result array is in point t's block iff its row is one of that block's 2000 rows. -/
theorem mem_blk (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_call0_v4).slice (win0_5.rect t)).set ↔ _
  rw [View.set_slice_whole, Rect.mem_set_unit]
  exact Iff.rfl

/-- Row r lies in the block of grid point r / 2000: the 25 row blocks tile the array. -/
theorem cover (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 25 := N_0
  let t : Fin cfg0.N := ⟨(i 0).val / 2000, by rw [hN]; omega⟩
  obtain ⟨-, -, e0, e1, -⟩ := idx_facts t
  refine ⟨t, flush0_5 t, ?_⟩
  rw [mem_blk]
  intro a
  have ht : t.val = (i 0).val / 2000 := rfl
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- After the launch the result array is the node-feature array. -/
theorem final (c : Dev nD) : (dats m 0 c).arrAt 5 cfg0.N = feat m c :=
  (dats m 0 c).arrAt_eq_of_cover 5 (feat m c) (fun t _ => flushed_eq m c t) cover

end Cert.KernelIdeal.Whole

end
-- ==== Proof.KRun.lean ====
/-
  The idealized kernel's run, with its result named. The launch leaves the node features
  `h = max(x·W1 + b1, 0)·W2 + b2` in its result array; the operations after it gather `h[col]` and add the gathered rows
  into `h` at `row`. Under the precondition the edge list holds node numbers, and the result is then the reference's
  `h + segment_sum(h[col], row)`.
-/
import proofs.«418311_j56573309223702_2_alg».proof.Proof.Gen.KernelIdeal.Frame
import proofs.«418311_j56573309223702_2_alg».proof.Proof.KVal
import proofs.«418311_j56573309223702_2_alg».proof.Proof.EdgeLaw
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open Cert.Pre_finite_inputs.Range (InRange)

variable (m : (ℓ : Loc nD τ sig) → Buf (Elt Ideal) ℓ) (ρ : Dev nD → PrngReg)

set_option maxRecDepth 200000 in
set_option maxHeartbeats 1000000 in
/-- What the operations after the launch leave in the result buffer: the edge stage of the launch's result array and
    the edge list as launched. -/
theorem tail_result (c : Dev nD) :
    Pipeline.afterTail₀ cfgs (dats m) 0 (V0 m) [hostOps1] c main_v0
      = Cert.KernelIdeal.Edge.edgeStage ((dats m 0 c).arrAt 5 cfg0.N) (m ((c : Thread nD τ).loc main_arg1)) := by
  have e5 : Pipeline.withArrays (cfgs 0).spec c (V0 m c) (fun w => (dats m 0 c).arrAt w (cfgs 0).N) (Proc.devRef .tc main_call0_v4)
      = (dats m 0 c).arrAt 5 cfg0.N := Pipeline.withArrays_arr spec0 launch0.win.arr_inj c _ _ 5
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  unfold Pipeline.afterTail₀
  simp only [List.flatten_cons, List.flatten_nil, List.append_nil]
  after_results_simp
  simp only [StableHlo.TRef.toBuf, StableHlo.TRef.ofBuf, cast_eq]
  rw [e5, e1]
  unfold Cert.KernelIdeal.Edge.edgeStage Cert.KernelIdeal.Edge.taken Cert.KernelIdeal.Edge.inBounds Cert.KernelIdeal.Edge.colIdx Cert.KernelIdeal.Edge.wrapNeg Cert.KernelIdeal.Edge.edgeRow0 Cert.KernelIdeal.Edge.edgeRow1
  rfl

/-- The run of the idealized kernel: the result buffer ends at the edge stage of the node features. -/
theorem run_named : θ_run defs (onTc (τ := τ) (main (F := Ideal))) ⟨m, fun _ => 0, ρ⟩ fun r => ∀ c : Dev nD,
      r.2.mem ((c.tc : Thread nD τ).loc main_v0) = Cert.KernelIdeal.Edge.edgeStage (feat m c) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      (((h c).2 main_v0 (Pipeline.mem_restRefs_of main_v0 (by decide) (by decide))).trans (tail_result m c)).trans (by rw [final]),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Whole

end
-- ==== Proof.lean ====
/-
  A two-layer node network followed by an edge aggregation, against its jnp reference, over the extended reals.

  The kernel computes the node features `h = max(x·W1 + b1, 0)·W2 + b2` in one launch over 25 row blocks of 2000 nodes
  (the operands' changes of float format are the identity on extended reals, and a product accumulated into a zero
  splat is the reference's contraction), then gathers `h[col]` and adds the gathered rows into `h` at `row`.
  The reference computes `h` with two whole-array contractions and returns `h + segment_sum(h[col], row)`.

  The two differ on an edge list with an entry that is no node number: the kernel's gather fills such a row with a
  non-number and its scatter counts a row index below zero from the end, while the reference's gather clamps and its
  segment sum drops. The precondition therefore says, beside finiteness of the float inputs, that every entry of the
  edge list is a node number, 0 ≤ e < 50000. Under it the index wrap is the identity, no gathered row is filled, and
  an accumulating scatter into `h` is `h` plus the same scatter into zeros (`h + s = h + (0 + s)`, which holds at
  the infinities too); finiteness itself is not used.

  The frames of the two kernel programs are the generated ones; the reference's frame is its generated run with the
  result dropped; the idealization rewrote nothing.
-/
import proofs.«418311_j56573309223702_2_alg».proof.Defs
import proofs.«418311_j56573309223702_2_alg».proof.Proof.Gen.Kernel
import proofs.«418311_j56573309223702_2_alg».proof.Proof.Gen.Kernel.Skeleton
import proofs.«418311_j56573309223702_2_alg».proof.Proof.Gen.Kernel.Launch
import proofs.«418311_j56573309223702_2_alg».proof.Proof.Gen.Kernel.Points
import proofs.«418311_j56573309223702_2_alg».proof.Proof.Gen.Kernel.Frame
import proofs.«418311_j56573309223702_2_alg».proof.Proof.Gen.KernelIdeal
import proofs.«418311_j56573309223702_2_alg».proof.Proof.Gen.KernelIdeal.Skeleton
import proofs.«418311_j56573309223702_2_alg».proof.Proof.Gen.KernelIdeal.Launch
import proofs.«418311_j56573309223702_2_alg».proof.Proof.Gen.KernelIdeal.Points
import proofs.«418311_j56573309223702_2_alg».proof.Proof.Gen.KernelIdeal.Frame
import proofs.«418311_j56573309223702_2_alg».proof.Proof.Gen.ReferenceIdeal
import proofs.«418311_j56573309223702_2_alg».proof.Proof.Gen.Pre_finite_inputs
import proofs.«418311_j56573309223702_2_alg».proof.Proof.Gen.ReferenceIdeal.Run
import proofs.«418311_j56573309223702_2_alg».proof.Proof.Gen.ReferenceIdeal.Read
import proofs.«418311_j56573309223702_2_alg».proof.Proof.PreIdx
import proofs.«418311_j56573309223702_2_alg».proof.Proof.EdgeLaw
import proofs.«418311_j56573309223702_2_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `h + segment_sum(h[col], row)` of arguments that agree, the edge list holding node numbers. -/
theorem algebraic : Cert.algebraic_KernelIdeal_ReferenceIdeal := by
  intro m ρ m' ρ' hpre hagree
  refine ⟨_, Cert.KernelIdeal.Whole.run_named m ρ, ?_⟩
  refine (θ_run Cert.ReferenceIdeal.defs _ _).mono (fun _ h c => ⟨(h c).1.trans ?_, (h c).2⟩)
    (Cert.ReferenceIdeal.Value.run (F := Ideal) m' ρ')
  have he : Cert.Pre_finite_inputs.Range.InRange (m ((c.tc : Thread Cert.KernelIdeal.nD Cert.KernelIdeal.τ).loc Cert.KernelIdeal.main_arg1)) :=
    Cert.Pre_finite_inputs.Range.inRange_of_pre _ _ _ _ _ _ (hpre c)
  obtain ⟨a0, a1, a2, a3, a4, a5⟩ := hagree c
  rw [Cert.ReferenceIdeal.Read.val_main_v23_eq, a0, a1, a2, a3, a4, a5]
  exact (Cert.KernelIdeal.Edge.edgeStage_eq_ref _ _ _ _ _ _ he).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
